-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What each control case of the kernel body leaves behind, as a closed term of the blocks it loaded.

  The body keeps a running 1024 x 1024 accumulator in a scratch buffer.  At the first step of a run over the
  contraction axis (k = 0) it stores zeros, reads them back, and stores  zeros + A_blk * B_blk ; at a middle
  step (k = 1, 2) it stores  acc + A_blk * B_blk  over what the step before left; at the last step (k = 3) it
  does the same and then writes  acc + 36  to the output block.  Every store covers the whole buffer, so the
  buffer's contents after a step are the payload of the last store, with each load read through the
  whole-buffer rectangle.
-/
import proofs.«131705_j72516227825730_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

/-- The offsets of every load and store of the body are zero on both axes. -/
theorem offsets_zero : (![0, 0] : Fin S1024x1024.rank → Nat) = fun _ => 0 := by
  funext a; fin_cases a <;> rfl

/-- First step of a run (k = 0): the accumulator ends at  zeros + A_blk * B_blk . -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) offsets_zero]
  simp only [View.readAt_eq_ld, harg3.read_unread, harg4.read_unread, View.ld_unit_zero (S := S1024x1024) offsets_zero,
    View.readCov_unit_zero (S := S1024x1024) _ offsets_zero]

/-- Middle step (k = 1, 2): the accumulator ends at  acc + A_blk * B_blk , acc being what the step before left. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1024) offsets_zero]
  simp only [View.readAt_eq_ld, harg3.read_unread, harg4.read_unread, harg6.read_unread,
    View.ld_unit_zero (S := S1024x1024) offsets_zero]

/-- Last step (k = 3): the accumulator ends at  acc + A_blk * B_blk  as at a middle step, -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1024) offsets_zero]
  simp only [View.readAt_eq_ld, harg3.read_unread, harg4.read_unread, harg6.read_unread,
    View.ld_unit_zero (S := S1024x1024) offsets_zero]

/-- and the output block is that accumulator plus the splat of 36. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs0 : Vec F S1024x1024 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) offsets_zero]
  simp only [View.readAt_eq_ld, harg3.read_unread, harg4.read_unread, harg6.read_unread,
    View.ld_unit_zero (S := S1024x1024) offsets_zero, View.readCov_unit_zero (S := S1024x1024) _ offsets_zero]

end Cert.KernelIdeal.Pieces

end
-- ==== Proof.PayloadAt.lean ====
/-
  The body's three stored values, read at one entry of the 1024 x 1024 block, over the extended reals.

  The reset value is zero everywhere.  An accumulation step leaves, at row p and column q, what was there
  before plus the inner product of row p of the A-block with column q of the B-block (the narrowing of both
  blocks to bf16 is the identity on exact values, and the matrix unit starts from a zero accumulator).  The
  epilogue adds the constant whose f32 pattern is 0x42100000, which is 36.
-/
import proofs.«131705_j72516227825730_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ### Where the matrix unit reads its two operands: (row, k) on the left, (k, column) on the right -/

theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem rhs_contr (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The reset value: zero at every entry. -/
theorem reset_at (y : S1024x1024.Idx) : k0_pay1 (F := Ideal) y = 0 := by
  unfold k0_pay1
  simp only [shapeCast_self]
  show Ideal.ofBits .f32 0x00000000#32 = 0
  exact Ideal.ofBits_zero_f32

/-- One accumulation step at entry (p, q): the previous value plus the inner product of row p of the left block
    with column q of the right block. -/
theorem step_at (x0 x1 acc : Vec Ideal S1024x1024 .f32) (p q : Fin 1024) :
    k0_pay2 (F := Ideal) x0 x1 acc (ix2 p q) = acc (ix2 p q) + ∑ r : Fin 1024, x0 (ix2 p r) * x1 (ix2 r q) := by
  unfold k0_pay2
  simp only [shapeCast_self]
  rw [addf_apply]
  refine congrArg (acc (ix2 p q) + ·) ?_
  simp only [matmul]
  rw [Ideal.matmul_constant_zero_apply, ← Equiv.sum_comp (contrEquiv1 dot_S1024x1024_S1024x1024_S1024x1024_1_0_0_1_n_n 1024 rfl rfl).symm]
  refine Finset.sum_congr rfl fun r _ => ?_
  have hr := contrEquiv1_symm_val dot_S1024x1024_S1024x1024_S1024x1024_1_0_0_1_n_n 1024 rfl rfl r
  have el : dot_S1024x1024_S1024x1024_S1024x1024_1_0_0_1_n_n.lhsIdx (ix2 p q) ((contrEquiv1 dot_S1024x1024_S1024x1024_S1024x1024_1_0_0_1_n_n 1024 rfl rfl).symm r) = ix2 p r := funext fun a => Fin.ext (by
    match a with
    | ⟨0, _⟩ => exact lhs_row _ _
    | ⟨1, _⟩ => exact (lhs_contr _ _).trans hr)
  have er : dot_S1024x1024_S1024x1024_S1024x1024_1_0_0_1_n_n.rhsIdx (ix2 p q) ((contrEquiv1 dot_S1024x1024_S1024x1024_S1024x1024_1_0_0_1_n_n 1024 rfl rfl).symm r) = ix2 r q := funext fun a => Fin.ext (by
    match a with
    | ⟨0, _⟩ => exact (rhs_contr _ _).trans hr
    | ⟨1, _⟩ => exact rhs_col _ _)
  rw [el, er]
  rfl

/-- The epilogue at any entry: the accumulator there plus the constant. -/
theorem epilogue_at (v : Vec Ideal S1024x1024 .f32) (y : S1024x1024.Idx) :
    k0_pay3 (F := Ideal) v y = v y + Ideal.ofBits .f32 0x42100000#32 := by
  unfold k0_pay3
  rfl

end Cert.KernelIdeal.PayloadAt

end
-- ==== Proof.BlockedSum.lean ====
/-
  Splitting a contraction of length 4096 into four consecutive blocks of length 1024.

  The kernel walks the contraction axis in four steps and keeps a running sum that starts from zero; the
  reference contracts all 4096 terms at once.  On the extended reals addition is commutative and
  associative (an infinite term changes nothing about that), so regrouping the 4096 terms as
  ((((0 + S0) + S1) + S2) + S3), with Sb the sum of the terms 1024 b ... 1024 b + 1023, is an identity that
  needs no finiteness of the terms.
-/
import Idealize.ShloMosaic.PureOps.Ideal
import Idealize.ShloMosaic.Lib.ValueIdx

noncomputable section

open scoped BigOperators

namespace Cert.BlockedSum

/-- Term number  1024 b + r  of the long contraction: term r of block b. -/
def term (b : Fin 4) (r : Fin 1024) : Fin 4096 :=
  ⟨1024 * b.val + r.val, by have := b.isLt; have := r.isLt; omega⟩

theorem term_val (b : Fin 4) (r : Fin 1024) : (term b r).val = 1024 * b.val + r.val := rfl

/-- A term of the long contraction is a block and a place in it: quotient and remainder by 1024. -/
def blocks : Fin 4 × Fin 1024 ≃ Fin 4096 where
  toFun p := term p.1 p.2
  invFun k := (⟨k.val / 1024, by have := k.isLt; omega⟩, ⟨k.val % 1024, Nat.mod_lt _ (by decide)⟩)
  left_inv p := by
    obtain ⟨b, r⟩ := p
    have hb := b.isLt
    have hr := r.isLt
    refine Prod.ext (Fin.ext ?_) (Fin.ext ?_)
    · show (1024 * b.val + r.val) / 1024 = b.val
      omega
    · show (1024 * b.val + r.val) % 1024 = r.val
      omega
  right_inv k := by
    apply Fin.ext
    show 1024 * (k.val / 1024) + k.val % 1024 = k.val
    omega

/-- The whole contraction is the running sum over the four blocks, started from zero. -/
theorem sum_by_blocks (f : Fin 4096 → EReal) :
    ∑ k : Fin 4096, f k
      = (((0 + ∑ r : Fin 1024, f (term 0 r)) + ∑ r : Fin 1024, f (term 1 r)) + ∑ r : Fin 1024, f (term 2 r))
          + ∑ r : Fin 1024, f (term 3 r) := by
  rw [← Equiv.sum_comp blocks f, Fintype.sum_prod_type, Fin.sum_univ_four, zero_add]
  rfl

/-! ### The specification both programs meet -/

open Idealize.ShloMosaic Idealize.ShloMosaic.ValueIdx

/-- Entry (r, s) of the product of two 4096 x 4096 matrices over the extended reals, plus a constant. -/
def entry (A B : (⟨2, ![4096, 4096]⟩ : Shape).Idx → EReal) (z : EReal) (r s : Fin 4096) : EReal :=
  (∑ k : Fin 4096, A (ix2 r k) * B (ix2 k s)) + z

/-- The whole result array: the product plus the constant, entry by entry. -/
def productPlus (A B : (⟨2, ![4096, 4096]⟩ : Shape).Idx → EReal) (z : EReal) :
    (⟨2, ![4096, 4096]⟩ : Shape).Idx → EReal :=
  fun i => entry A B z (i 0) (i 1)

/-- The same entry with the contraction walked block by block from a zero start. -/
theorem entry_by_blocks (A B : (⟨2, ![4096, 4096]⟩ : Shape).Idx → EReal) (z : EReal) (r s : Fin 4096) :
    entry A B z r s
      = ((((0 + ∑ x : Fin 1024, A (ix2 r (term 0 x)) * B (ix2 (term 0 x) s))
            + ∑ x : Fin 1024, A (ix2 r (term 1 x)) * B (ix2 (term 1 x) s))
            + ∑ x : Fin 1024, A (ix2 r (term 2 x)) * B (ix2 (term 2 x) s))
            + ∑ x : Fin 1024, A (ix2 r (term 3 x)) * B (ix2 (term 3 x) s)) + z := by
  unfold entry
  rw [sum_by_blocks (fun k => A (ix2 r k) * B (ix2 k s))]

end Cert.BlockedSum

end
-- ==== Proof.KernelValue.lean ====
/-
  The result array of the idealized kernel, as one function of its two argument arrays.

  The grid is 4 x 4 x 4, the contraction step k running fastest: point number n works on block row n / 16,
  block column (n / 4) mod 4 and contraction block n mod 4.  Along a run of four consecutive points the
  scratch accumulator goes  0 + P0,  then + P1,  + P2,  + P3,  where Pk is the product of the (row, k) block
  of A with the (k, column) block of B; at the fourth point the output block receives that accumulator plus
  36 and is written back.  Entry by entry this is the four-block form of the full contraction, so each
  written-back block is the corresponding block of  A * B + 36 ; the sixteen written-back blocks tile the
  array, hence the array ends at  A * B + 36 .
-/
import proofs.«131705_j72516227825730_1_alg».proof.Proof.Gen.KernelIdeal.Value
import proofs.«131705_j72516227825730_1_alg».proof.Proof.Pieces
import proofs.«131705_j72516227825730_1_alg».proof.Proof.PayloadAt
import proofs.«131705_j72516227825730_1_alg».proof.Proof.BlockedSum

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.BlockedSum

variable (m : (ℓ : Loc nD τ sig) → Buf (Elt Ideal) ℓ) (ρ : Dev nD → PrngReg)

/-- The two argument arrays, and per grid point the two loaded blocks, the accumulator after the point and the
    output block after the point, each at its literal shape. -/
abbrev argA (c : Dev nD) : S4096x4096.Idx → EReal := m ((c : Thread nD τ).loc main_arg0)
abbrev argB (c : Dev nD) : S4096x4096.Idx → EReal := m ((c : Thread nD τ).loc main_arg1)
abbrev ablk (c : Dev nD) (t : Fin cfg0.N) : Vec Ideal S1024x1024 .f32 := iblk m c 0 t
abbrev bblk (c : Dev nD) (t : Fin cfg0.N) : Vec Ideal S1024x1024 .f32 := iblk m c 1 t
abbrev acc (c : Dev nD) (t : Fin cfg0.N) : Vec Ideal S1024x1024 .f32 := (outsAt0 m c t.val t.isLt).2
abbrev outb (c : Dev nD) (t : Fin cfg0.N) : Vec Ideal S1024x1024 .f32 := (outsAt0 m c t.val t.isLt).1

/-- The constant the epilogue adds (the f32 pattern of 36). -/
abbrev bias : EReal := Ideal.ofBits .f32 0x42100000#32

/-- Which block each window holds at point n: A's block (n / 16, n mod 4), B's block (n mod 4, (n / 4) mod 4),
    the output's block (n / 16, (n / 4) mod 4). -/
theorem index_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-! ### The accumulator point by point -/

theorem outs_congr (c : Dev nD) (u n : ℕ) (hu : u < cfg0.N) (hn : n < cfg0.N) (e : u = n) :
    outsAt0 m c u hu = outsAt0 m c n hn := by
  subst e; rfl

/-- At the first point of a run the accumulator is the reset value stepped once. -/
theorem acc_at_first (c : Dev nD) (t : Fin cfg0.N) (h0 : t.val % 4 = 0) :
    acc m c t = k0_pay2 (ablk m c t) (bblk m c t) (k0_pay1 (F := Ideal)) := by
  have h1 : ¬t.val % 4 = 3 := by omega
  show (outsAt0 m c t.val t.isLt).2 = _
  rw [outsAt0_A m c t h0 h1]
  dsimp only
  exact Pieces.acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At the second and third point it is the accumulator of the point before, stepped once. -/
theorem acc_at_middle (c : Dev nD) (t s : Fin cfg0.N) (hs : s.val = t.val - 1) (h0 : ¬t.val % 4 = 0) (h1 : ¬t.val % 4 = 3) :
    acc m c t = k0_pay2 (ablk m c t) (bblk m c t) (acc m c s) := by
  show (outsAt0 m c t.val t.isLt).2 = _
  rw [outsAt0_B m c t h0 h1]
  dsimp only
  rw [outs_congr m c (t.val - 1) s.val _ s.isLt hs.symm]
  exact Pieces.acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c s.val s.isLt).2

/-- At the fourth point the output block is the accumulator of the point before, stepped once, plus the constant. -/
theorem out_at_last (c : Dev nD) (t s : Fin cfg0.N) (hs : s.val = t.val - 1) (h1 : t.val % 4 = 3) :
    outb m c t = k0_pay3 (k0_pay2 (ablk m c t) (bblk m c t) (acc m c s)) := by
  have h0 : ¬t.val % 4 = 0 := by omega
  show (outsAt0 m c t.val t.isLt).1 = _
  rw [outsAt0_C m c t h0 h1]
  dsimp only
  rw [outs_congr m c (t.val - 1) s.val _ s.isLt hs.symm]
  exact Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c s.val s.isLt).2

/-! ### The loaded blocks are blocks of the argument arrays -/

/-- Entry (p, x) of A's block at point t is A at row 1024 (t / 16) + p, column 1024 (t mod 4) + x. -/
theorem ablk_at (c : Dev nD) (t : Fin cfg0.N) (p x : Fin 1024) (R K : Fin 4096)
    (hR : R.val = 1024 * (t.val / 16) + p.val) (hK : K.val = 1024 * (t.val % 4) + x.val) :
    ablk m c t (ix2 p x) = argA m c (ix2 R K) := by
  obtain ⟨e0, e1, -⟩ := index_facts t
  show (((cfg0.win 0).blk t).view.read (Elt Ideal) (V m c (Pipeline.arrRef spec0 0))) (ix2 p x) = _
  rw [View.read_apply]
  show V m c main_arg0 _ = m ((c : Thread nD τ).loc main_arg0) _
  unfold V
  congr 1
  funext a
  apply Fin.ext
  match a with
  | ⟨0, _⟩ => show win0_0.index t (0 : Fin 2) * 1024 + 1 * p.val = R.val; omega
  | ⟨1, _⟩ => show win0_0.index t (1 : Fin 2) * 1024 + 1 * x.val = K.val; omega

/-- Entry (x, q) of B's block at point t is B at row 1024 (t mod 4) + x, column 1024 ((t / 4) mod 4) + q. -/
theorem bblk_at (c : Dev nD) (t : Fin cfg0.N) (x q : Fin 1024) (K C : Fin 4096)
    (hK : K.val = 1024 * (t.val % 4) + x.val) (hC : C.val = 1024 * (t.val / 4 % 4) + q.val) :
    bblk m c t (ix2 x q) = argB m c (ix2 K C) := by
  obtain ⟨-, -, e2, e3, -⟩ := index_facts t
  show (((cfg0.win 1).blk t).view.read (Elt Ideal) (V m c (Pipeline.arrRef spec0 1))) (ix2 x q) = _
  rw [View.read_apply]
  show V m c main_arg1 _ = m ((c : Thread nD τ).loc main_arg1) _
  unfold V
  congr 1
  funext a
  apply Fin.ext
  match a with
  | ⟨0, _⟩ => show win0_1.index t (0 : Fin 2) * 1024 + 1 * x.val = K.val; omega
  | ⟨1, _⟩ => show win0_1.index t (1 : Fin 2) * 1024 + 1 * q.val = C.val; omega

/-! ### One entry of the output block at the last point of a run -/

/-- Entry (p, q) of the output block at a point t with t mod 4 = 3 is entry (R, C) of A * B + 36, where R and C
    are the row and column the block places (p, q) at. -/
theorem out_entry (c : Dev nD) (t : Fin cfg0.N) (h3 : t.val % 4 = 3) (p q : Fin 1024) (R C : Fin 4096)
    (hR : R.val = 1024 * (t.val / 16) + p.val) (hC : C.val = 1024 * (t.val / 4 % 4) + q.val) :
    outb m c t (ix2 p q) = entry (argA m c) (argB m c) bias R C := by
  obtain ⟨t2, ht2⟩ : ∃ s : Fin cfg0.N, s.val = t.val - 1 := ⟨⟨t.val - 1, lt_of_le_of_lt (Nat.sub_le _ _) t.isLt⟩, rfl⟩
  obtain ⟨t1, ht1⟩ : ∃ s : Fin cfg0.N, s.val = t2.val - 1 := ⟨⟨t2.val - 1, lt_of_le_of_lt (Nat.sub_le _ _) t2.isLt⟩, rfl⟩
  obtain ⟨t0, ht0⟩ : ∃ s : Fin cfg0.N, s.val = t1.val - 1 := ⟨⟨t1.val - 1, lt_of_le_of_lt (Nat.sub_le _ _) t1.isLt⟩, rfl⟩
  have blockSum : ∀ (s : Fin cfg0.N) (b : Fin 4), s.val % 4 = b.val → s.val / 16 = t.val / 16 → s.val / 4 % 4 = t.val / 4 % 4 →
      ∑ x : Fin 1024, ablk m c s (ix2 p x) * bblk m c s (ix2 x q)
        = ∑ x : Fin 1024, argA m c (ix2 R (term b x)) * argB m c (ix2 (term b x) C) := by
    intro s b hb h16 h4
    refine Finset.sum_congr rfl fun x _ => ?_
    rw [ablk_at m c s p x R (term b x) (by rw [hR, h16]) (by rw [term_val, hb]),
      bblk_at m c s x q (term b x) C (by rw [term_val, hb]) (by rw [hC, h4])]
  rw [out_at_last m c t t2 ht2 h3, PayloadAt.epilogue_at, PayloadAt.step_at,
    acc_at_middle m c t2 t1 ht1 (by omega) (by omega), PayloadAt.step_at,
    acc_at_middle m c t1 t0 ht0 (by omega) (by omega), PayloadAt.step_at,
    acc_at_first m c t0 (by omega), PayloadAt.step_at, PayloadAt.reset_at,
    blockSum t0 0 (by show t0.val % 4 = 0; omega) (by omega) (by omega),
    blockSum t1 1 (by show t1.val % 4 = 1; omega) (by omega) (by omega),
    blockSum t2 2 (by show t2.val % 4 = 2; omega) (by omega) (by omega),
    blockSum t 3 (by show t.val % 4 = 3; omega) rfl rfl,
    entry_by_blocks]

/-! ### From the written-back blocks to the array -/

/-- What the result array holds after the run: A * B + 36. -/
abbrev result (c : Dev nD) : Buf (Elt Ideal) ((c : Thread nD τ).loc main_v0) :=
  productPlus (argA m c) (argB m c) bias

/-- What a writing point writes back is its block of A * B + 36. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨-, -, -, -, e4, e5⟩ := index_facts t
  rw [Value.flushed2]
  funext j
  show outb m c t j = result m c (((cfg0.win 2).blk t).view.emb j)
  refine (congrArg (outb m c t) (eq_ix2 (n0 := 1024) (n1 := 1024) j)).trans ?_
  exact out_entry m c t h3 (j 0) (j 1) ((((cfg0.win 2).blk t).view.emb j) 0) ((((cfg0.win 2).blk t).view.emb j) 1)
    (by show win0_2.index t (0 : Fin 2) * 1024 + 1 * (j 0).val = _; rw [e4]; omega)
    (by show win0_2.index t (1 : Fin 2) * 1024 + 1 * (j 1).val = _; rw [e5]; omega)

/-- Every entry of the array lies in the block of some writing point: the last point of the run for its block
    row and block column. -/
theorem cover (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 64 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, e4, e5⟩ := index_facts t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- The result array after the run. -/
theorem final (c : Dev nD) : (dats m 0 c).arrAt 2 cfg0.N = result m c :=
  (dats m 0 c).arrAt_eq_of_cover 2 (result m c) (flushed_eq m c) cover

/-- Every weakly fair execution ends with the result array at A * B + 36 and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference computes the specification: its four host operations (the full contraction of A with B, the
  scalar constant 36, its broadcast to the whole shape, the entrywise sum) give, at entry (r, s), the sum over all
  4096 k of A(r, k) * B(k, s), plus 36.
-/
import proofs.«131705_j72516227825730_1_alg».proof.Proof.Gen.ReferenceIdeal.Read
import proofs.«131705_j72516227825730_1_alg».proof.Proof.BlockedSum

noncomputable section

open scoped BigOperators

namespace Cert.ReferenceIdeal.Whole

open Cert.ReferenceIdeal Cert.ReferenceIdeal.Gen Cert.ReferenceIdeal.Read Idealize.ShloMosaic Idealize.ShloMosaic.ValueIdx
open Cert.BlockedSum

/-- The last stage of the reference, over the extended reals, is the product plus the constant. -/
theorem reference_eq (A B : (⟨S4096x4096, .f32⟩ : BufTy).Contents (Elt Ideal)) :
    val_main_v2 (F := Ideal) A B = productPlus A B (Ideal.ofBits .f32 0x42100000#32) := by
  funext i
  have el : ∀ k : Fin 4096, lidx_main_v0 i k = ix2 (i 0) k := fun k => funext fun a => by
    match a with
    | ⟨0, _⟩ => rfl
    | ⟨1, _⟩ => rfl
  have er : ∀ k : Fin 4096, ridx_main_v0 i k = ix2 k (i 1) := fun k => funext fun a => by
    match a with
    | ⟨0, _⟩ => rfl
    | ⟨1, _⟩ => rfl
  rw [val_main_v2_apply, val_main_v0_apply, val_main_v1_apply, val_main_cst_apply]
  simp only [el, er]
  rfl

end Cert.ReferenceIdeal.Whole

end
-- ==== Proof.lean ====
/-
  The certificate of a K-blocked matrix product with an additive epilogue against the plain product.

  The kernel computes a 4096 x 4096 product in 1024 x 1024 blocks on a 4 x 4 x 4 grid: for each block row and
  block column it walks the four contraction blocks, keeping a running sum in a scratch buffer that it zeroes
  at the first step, and at the fourth step writes the sum plus 36 to the output block.  The reference is one
  full contraction plus 36.  Over the extended reals the narrowing of the operands to bf16 is the identity,
  the matrix unit's product is the exact sum of products, and regrouping the 4096 terms of each entry into four
  consecutive blocks (started from zero) is an identity of a commutative monoid, so no finiteness of the inputs
  is used: both programs end at  A * B + 36 , entry by entry.

  The three frames are the generated ones (the reference's is its run with the result dropped); the
  idealization rewrote nothing, so the preservation conjunct is trivial.
-/
import proofs.«131705_j72516227825730_1_alg».proof.Defs
import proofs.«131705_j72516227825730_1_alg».proof.Proof.Gen.Kernel
import proofs.«131705_j72516227825730_1_alg».proof.Proof.Gen.Kernel.Skeleton
import proofs.«131705_j72516227825730_1_alg».proof.Proof.Gen.Kernel.Launch
import proofs.«131705_j72516227825730_1_alg».proof.Proof.Gen.Kernel.Points
import proofs.«131705_j72516227825730_1_alg».proof.Proof.Gen.Kernel.Frame
import proofs.«131705_j72516227825730_1_alg».proof.Proof.Gen.KernelIdeal
import proofs.«131705_j72516227825730_1_alg».proof.Proof.Gen.KernelIdeal.Skeleton
import proofs.«131705_j72516227825730_1_alg».proof.Proof.Gen.KernelIdeal.Launch
import proofs.«131705_j72516227825730_1_alg».proof.Proof.Gen.KernelIdeal.Points
import proofs.«131705_j72516227825730_1_alg».proof.Proof.Gen.KernelIdeal.Frame
import proofs.«131705_j72516227825730_1_alg».proof.Proof.Gen.ReferenceIdeal
import proofs.«131705_j72516227825730_1_alg».proof.Proof.Gen.Pre_finite_inputs
import proofs.«131705_j72516227825730_1_alg».proof.Proof.Gen.KernelIdeal.Value
import proofs.«131705_j72516227825730_1_alg».proof.Proof.Gen.ReferenceIdeal.Run
import proofs.«131705_j72516227825730_1_alg».proof.Proof.Gen.ReferenceIdeal.Read
import proofs.«131705_j72516227825730_1_alg».proof.Proof.KernelValue
import proofs.«131705_j72516227825730_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the result array at  A * B + 36  of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Whole.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
